-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S256x256 : Shape := ⟨2, ![256, 256]⟩
abbrev S256 : Shape := ⟨1, ![256]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S8192x8192 .f32) (main_arg1 : FVec F S256x256 .f32) (main_arg2 : FVec F S256 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S8192x8192 : Shape := ⟨2, ![8192, 8192]⟩
abbrev S256x256 : Shape := ⟨2, ![256, 256]⟩
abbrev S256 : Shape := ⟨1, ![256]⟩
abbrev S512x16x512x16 : Shape := ⟨4, ![512, 16, 512, 16]⟩
abbrev S512x512x16x16 : Shape := ⟨4, ![512, 512, 16, 16]⟩
abbrev S512x512x256 : Shape := ⟨3, ![512, 512, 256]⟩
abbrev S1x256 : Shape := ⟨2, ![1, 256]⟩
abbrev S512x512 : Shape := ⟨2, ![512, 512]⟩
abbrev S16x512x256 : Shape := ⟨3, ![16, 512, 256]⟩
abbrev S16x512 : Shape := ⟨2, ![16, 512]⟩
abbrev S8192x256 : Shape := ⟨2, ![8192, 256]⟩

abbrev nBuf : Space → Nat
  | .hbm => 10
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S256x256, .f32⟩
  | .hbm, ⟨2, _⟩ => ⟨S256, .f32⟩
  | .hbm, ⟨3, _⟩ => ⟨S512x16x512x16, .f32⟩
  | .hbm, ⟨4, _⟩ => ⟨S512x512x16x16, .f32⟩
  | .hbm, ⟨5, _⟩ => ⟨S512x512x256, .f32⟩
  | .hbm, ⟨6, _⟩ => ⟨S256x256, .f32⟩
  | .hbm, ⟨7, _⟩ => ⟨S256x256, .bf16⟩
  | .hbm, ⟨8, _⟩ => ⟨S1x256, .f32⟩
  | .hbm, ⟨9, _⟩ => ⟨S512x512, .f32⟩
  | .local _ .vmem, ⟨0, _⟩ => ⟨S16x512x256, .f32⟩
  | .local _ .vmem, ⟨1, _⟩ => ⟨S16x512x256, .f32⟩
  | .local _ .vmem, ⟨2, _⟩ => ⟨S256x256, .bf16⟩
  | .local _ .vmem, ⟨3, _⟩ => ⟨S1x256, .f32⟩
  | .local _ .vmem, ⟨4, _⟩ => ⟨S16x512, .f32⟩
  | .local _ .vmem, ⟨5, _⟩ => ⟨S16x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x8192_S512x16x512x16 : S8192x8192.ShapeCasts S512x16x512x16
  transposes_S512x16x512x16_S512x512x16x16_0_2_1_3 : S512x16x512x16.Transposes [0, 2, 1, 3] S512x512x16x16
  shapeCasts_S512x512x16x16_S512x512x256 : S512x512x16x16.ShapeCasts S512x512x256
  transposes_S256x256_S256x256_1_0 : S256x256.Transposes [1, 0] S256x256
  bitsLt_bf16_f32 : FTy.bits .bf16 < FTy.bits .f32
  shapeCasts_S256_S1x256 : S256.ShapeCasts S1x256
  inb_S16x512x256_S16x512x256_0_0_0 : ∀ a, (![0, 0, 0] : Fin 3 → Nat) a + S16x512x256.size a ≤ S16x512x256.size a
  h_S16x512x256 : 0 < S16x512x256.numel
  shapeCasts_S16x512x256_S16x512x256 : S16x512x256.ShapeCasts S16x512x256
  shapeCasts_S16x512x256_S8192x256 : S16x512x256.ShapeCasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  shapeCasts_S8192x256_S16x512x256 : S8192x256.ShapeCasts S16x512x256
  reduces_S16x512x256_S16x512 : S16x512x256.Reduces [2] S16x512
  inb_S16x512_S16x512_0_0 : ∀ a, (![0, 0] : Fin 2 → Nat) a + S16x512.size a ≤ S16x512.size a
  h_S16x512 : 0 < S16x512.numel
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x256.size a ≤ S512x512x256.size a
  hwx0_0 : ∀ i : grid0.Coords, EltTy.bits .f32 = 32 ∨ (Rect.block (s := S512x512x256) S16x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S512x512.size a
  hwx0_3 : ∀ i : grid0.Coords, EltTy.bits .f32 = 32 ∨ (Rect.block (s := S512x512) S16x512.size (cc0_transform_3 i) (hinb0_3 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_v2) S16x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S256x256 : Shape := ⟨2, ![256, 256]⟩
abbrev S256 : Shape := ⟨1, ![256]⟩
abbrev S512x16x512x16 : Shape := ⟨4, ![512, 16, 512, 16]⟩
abbrev S512x512x16x16 : Shape := ⟨4, ![512, 512, 16, 16]⟩
abbrev S262144x256 : Shape := ⟨2, ![262144, 256]⟩
abbrev S1x256 : Shape := ⟨2, ![1, 256]⟩
abbrev S_ : Shape := ⟨0, ![]⟩
abbrev S262144 : Shape := ⟨1, ![262144]⟩
abbrev S512x512 : Shape := ⟨2, ![512, 512]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S256x256, .f32⟩
  | .hbm, ⟨2, _⟩ => ⟨S256, .f32⟩
  | .hbm, ⟨3, _⟩ => ⟨S512x16x512x16, .f32⟩
  | .hbm, ⟨4, _⟩ => ⟨S512x512x16x16, .f32⟩
  | .hbm, ⟨5, _⟩ => ⟨S262144x256, .f32⟩
  | .hbm, ⟨6, _⟩ => ⟨S256x256, .f32⟩
  | .hbm, ⟨7, _⟩ => ⟨S262144x256, .f32⟩
  | .hbm, ⟨8, _⟩ => ⟨S1x256, .f32⟩
  | .hbm, ⟨9, _⟩ => ⟨S262144x256, .f32⟩
  | .hbm, ⟨10, _⟩ => ⟨S262144x256, .f32⟩
  | .hbm, ⟨11, _⟩ => ⟨S_, .f32⟩
  | .hbm, ⟨12, _⟩ => ⟨S262144, .f32⟩
  | .hbm, ⟨13, _⟩ => ⟨S512x512, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S8192x8192_S512x16x512x16 : S8192x8192.ShapeCasts S512x16x512x16
  transposes_S512x16x512x16_S512x512x16x16_0_2_1_3 : S512x16x512x16.Transposes [0, 2, 1, 3] S512x512x16x16
  shapeCasts_S512x512x16x16_S262144x256 : S512x512x16x16.ShapeCasts S262144x256
  transposes_S256x256_S256x256_1_0 : S256x256.Transposes [1, 0] S256x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  reducesTo_S262144x256_S262144_d1 : S262144x256.ReducesTo [1] S262144
  h_S_ : 0 < S_.numel
  shapeCasts_S262144_S512x512 : S262144.ShapeCasts S512x512
  dot_S262144x256_S256x256_S262144x256_1_0_0_1_n_n_wf : DotDims.WF S262144x256 S256x256 S262144x256 [1] [0] [0] [1] [] []

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.Spec.lean ====
/-
  The function both programs compute, stated once over the three argument arrays.

  The image `data` (8192 × 8192) is cut into 512 × 512 non-overlapping patches of 16 × 16 pixels. Patch `(r, c)`,
  flattened row-major, holds at position `k` the pixel in image row `16 r + k / 16` and column `16 c + k % 16`.
  A linear layer with 256 outputs is applied to the flattened patch, `y e = (∑ k, patch k * weight (e, k)) + bias e`,
  and the 256 outputs are summed: one number per patch.

  Everything is over the extended reals. Only sums and products of the inputs occur, taken in one fixed
  grouping, so no law that could fail at an infinity (distributivity, cancellation) is used anywhere.
-/
import Idealize.ShloMosaic.PureOps.Ideal
import Idealize.ShloMosaic.Lib.ValueIdx

noncomputable section

namespace Cert.PatchLinear

open Idealize.ShloMosaic Idealize.ShloMosaic.ValueIdx

/-- The image index of the pixel that patch `(r, c)` holds at flattened position `k`. -/
def pixel (r c : Fin 512) (k : Fin 256) : (⟨2, ![8192, 8192]⟩ : Shape).Idx :=
  ix2 (⟨16 * r.val + k.val / 16, by have := r.isLt; have := k.isLt; omega⟩ : Fin 8192)
    (⟨16 * c.val + k.val % 16, by have := c.isLt; have := k.isLt; omega⟩ : Fin 8192)

/-- The digits of the flattened position `(512 r + c) * 256 + k = r * 131072 + c * 256 + k` in the mixed radix
    (512, 512, 16, 16): they are `r`, `c`, `k / 16` and `k % 16`. Both programs flatten a patch at this position. -/
theorem patch_digits (r c k : ℕ) (hr : r < 512) (hc : c < 512) (hk : k < 256) :
    ((r * 512 + c) * 256 + k) / 131072 = r ∧ ((r * 512 + c) * 256 + k) / 256 % 512 = c
      ∧ ((r * 512 + c) * 256 + k) / 16 % 16 = k / 16 ∧ ((r * 512 + c) * 256 + k) % 16 = k % 16 :=
  ⟨by omega, by omega, by omega, by omega⟩

/-- Read back as an image position, `(r, k / 16, c, k % 16)` in the radix (512, 16, 512, 16) is row `16 r + k / 16`
    and column `16 c + k % 16` of the 8192-wide image. -/
theorem patch_pixel (r c u v : ℕ) (hc : c < 512) (hv : v < 16) :
    (((r * 16 + u) * 512 + c) * 16 + v) / 8192 = 16 * r + u ∧ (((r * 16 + u) * 512 + c) * 16 + v) % 8192 = 16 * c + v :=
  ⟨by omega, by omega⟩

/-- Patch `(r, c)`'s number: the sum over the output features `e` of the linear layer's output at `e`. -/
def patchSumAt (data : (⟨2, ![8192, 8192]⟩ : Shape).Idx → EReal) (weight : (⟨2, ![256, 256]⟩ : Shape).Idx → EReal)
    (bias : (⟨1, ![256]⟩ : Shape).Idx → EReal) (r c : Fin 512) : EReal :=
  ∑ e : Fin 256, ((∑ k : Fin 256, data (pixel r c k) * weight (ix2 e k)) + bias (ix1 e))

/-- The whole 512 × 512 result, index by index. -/
def patchSum (data : (⟨2, ![8192, 8192]⟩ : Shape).Idx → EReal) (weight : (⟨2, ![256, 256]⟩ : Shape).Idx → EReal)
    (bias : (⟨1, ![256]⟩ : Shape).Idx → EReal) : (⟨2, ![512, 512]⟩ : Shape).Idx → EReal :=
  fun j => patchSumAt data weight bias (j 0) (j 1)

theorem patchSum_ix2 (data : (⟨2, ![8192, 8192]⟩ : Shape).Idx → EReal) (weight : (⟨2, ![256, 256]⟩ : Shape).Idx → EReal)
    (bias : (⟨1, ![256]⟩ : Shape).Idx → EReal) (r c : Fin 512) :
    patchSum data weight bias (ix2 r c) = patchSumAt data weight bias r c := rfl

end Cert.PatchLinear

end
-- ==== Proof.RefSpec.lean ====
/-
  The reference program computes the specification.

  Read one operation at a time, the reference's result at `(r, c)` is the zero it starts its sum from, plus the sum
  over the output features `e` of a 256-term product sum plus the bias at `e`. Its left factor is the flattened
  patch matrix at row `512 r + c`, column `k`. Undoing the two reshapes and the transpose that build that matrix
  from the image, position `(512 r + c) * 256 + k` is `r * 131072 + c * 256 + k`, whose digits in the mixed radix
  (512, 512, 16, 16) are `r, c, k / 16, k % 16`. The transpose swaps the middle two, and the first reshape reads
  `(r, k / 16, c, k % 16)` back as image row `16 r + k / 16`, column `16 c + k % 16`: the pixel of the specification.
  Its right factor is the transposed weight at `(k, e)`, the weight at `(e, k)`, and the bias is broadcast along rows.
-/
import proofs.«176963_j2439541424746_1_alg».proof.Proof.Gen.ReferenceIdeal.Read
import proofs.«176963_j2439541424746_1_alg».proof.Proof.Spec

noncomputable section

namespace Cert.ReferenceIdeal.RefValue

open Cert.ReferenceIdeal Cert.ReferenceIdeal.Read Cert.PatchLinear
open Idealize.ShloMosaic Idealize.ShloMosaic.ValueIdx

/-- The patch matrix's entry `(512 r + c, k)`, traced back through the reshape, transpose and reshape, is the
    specification's pixel of patch `(r, c)` at position `k`. -/
theorem idx_pixel (r c : Fin 512) (e k : Fin 256) :
    idx_main_v0 (idx_main_v1 (idx_main_v2 (lidx_main_v4 (idx_main_v8 (idx_main_v9 (ix2 r c)) e) k))) = pixel r c k := by
  have hr : r.val < 512 := r.isLt
  have hc : c.val < 512 := c.isLt
  have hk : k.val < 256 := k.isLt
  obtain ⟨d0, d1, d2, d3⟩ := patch_digits r.val c.val k.val hr hc hk
  obtain ⟨p0, p1⟩ := patch_pixel r.val c.val (k.val / 16) (k.val % 16) hc (Nat.mod_lt _ (by decide))
  funext a
  match a with
  | ⟨0, _⟩ => exact Fin.ext (by show (((((r.val * 512 + c.val) * 256 + k.val) / 131072 * 16 + ((r.val * 512 + c.val) * 256 + k.val) / 16 % 16) * 512 + ((r.val * 512 + c.val) * 256 + k.val) / 256 % 512) * 16 + ((r.val * 512 + c.val) * 256 + k.val) % 16) / 8192 = 16 * r.val + k.val / 16; rw [d0, d1, d2, d3]; exact p0)
  | ⟨1, _⟩ => exact Fin.ext (by show (((((r.val * 512 + c.val) * 256 + k.val) / 131072 * 16 + ((r.val * 512 + c.val) * 256 + k.val) / 16 % 16) * 512 + ((r.val * 512 + c.val) * 256 + k.val) / 256 % 512) * 16 + ((r.val * 512 + c.val) * 256 + k.val) % 16) % 8192 = 16 * c.val + k.val % 16; rw [d0, d1, d2, d3]; exact p1)

/-- The transposed weight at `(k, e)` is the weight at `(e, k)`. -/
theorem idx_weight (r c : Fin 512) (e k : Fin 256) :
    idx_main_v3 (ridx_main_v4 (idx_main_v8 (idx_main_v9 (ix2 r c)) e) k) = ix2 e k := by
  funext a
  match a with
  | ⟨0, _⟩ => rfl
  | ⟨1, _⟩ => rfl

/-- The bias, broadcast along the rows, is read at the column. -/
theorem idx_bias (r c : Fin 512) (e : Fin 256) :
    idx_main_v5 (idx_main_v6 (idx_main_v8 (idx_main_v9 (ix2 r c)) e)) = ix1 e := by
  funext a
  match a with
  | ⟨0, _⟩ => rfl

/-- The reference's result, as a function of the three argument arrays, is the specification. -/
theorem ref_eq_spec (x0 : (⟨S8192x8192, .f32⟩ : BufTy).Contents (Elt Ideal)) (x1 : (⟨S256x256, .f32⟩ : BufTy).Contents (Elt Ideal))
    (x2 : (⟨S256, .f32⟩ : BufTy).Contents (Elt Ideal)) :
    val_main_v9 (F := Ideal) x0 x1 x2 = patchSum x0 x1 x2 := by
  funext i
  obtain ⟨r, c, rfl⟩ : ∃ (r c : Fin 512), i = ix2 r c := ⟨i 0, i 1, eq_ix2 i⟩
  rw [patchSum_ix2, val_main_v9_apply, val_main_v8_apply, val_main_cst_apply]
  show Ideal.ofBits .f32 0x00000000#32 + _ = _
  rw [Ideal.ofBits_zero_f32, zero_add]
  unfold patchSumAt
  refine Finset.sum_congr rfl fun e _ => ?_
  rw [val_main_v7_apply, val_main_v4_apply, val_main_v6_apply, val_main_v5_apply, idx_bias]
  show (∑ k : Fin 256, _) + _ = _
  refine congrArg (· + x2 (ix1 e)) (Finset.sum_congr rfl fun k _ => ?_)
  rw [val_main_v2_apply, val_main_v1_apply, val_main_v0_apply, val_main_v3_apply, idx_pixel, idx_weight]

end Cert.ReferenceIdeal.RefValue

end
-- ==== Proof.Body.lean ====
/-
  The kernel body's arithmetic at one entry of its output block.

  A grid step holds a block of 16 patch rows: `x0 (a, c, k)` is patch `c` of row `a` at flattened position `k`,
  `x1 (k, e)` the transposed weight, `x2 (0, e)` the bias. The body flattens the block to 8192 = 16 * 512 rows (row
  `512 a + c`), multiplies by `x1` into a zero accumulator, adds the bias along the rows, restores the three axes and sums
  over the last. A change of float format is the identity on the extended reals, a product into a zero accumulator is the
  plain sum of products, and a lane sum from zero is the plain sum, so the entry `(a, c)` of the result is
  `∑ e, ((∑ k, x0 (a, c, k) * x1 (k, e)) + x2 (0, e))`.
-/
import proofs.«176963_j2439541424746_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx

/-- Row `512 a + c` of the flattened block. -/
abbrev flatRow (a : Fin 16) (c : Fin 512) : Fin 8192 := ⟨a.val * 512 + c.val, by have := a.isLt; have := c.isLt; omega⟩

/-! ## The layout operations at an entry -/

/-- Flattening the block's two leading axes: row `512 a + c`, column `k` is the block at `(a, c, k)`. -/
theorem flatten_at (x : FVec Ideal S16x512x256 .f32) (a : Fin 16) (c : Fin 512) (k : Fin 256) :
    shapeCast S8192x256 x shapeCasts_S16x512x256_S8192x256 (ix2 (flatRow a c) k) = x (ix3 a c k) :=
  shapeCast_apply x shapeCasts_S16x512x256_S8192x256 (ix2 (flatRow a c) k) (ix3 a c k)
    (by rewrite [Shape.rowMajor_val_three, Shape.rowMajor_val_two]
        show (a.val * 512 + c.val) * 256 + k.val = (a.val * 512 + c.val) * 256 + k.val; rfl)

/-- Restoring the three axes: `(a, c, e)` is row `512 a + c`, column `e` of the flat matrix. -/
theorem unflatten_at (y : FVec Ideal S8192x256 .f32) (a : Fin 16) (c : Fin 512) (e : Fin 256) :
    shapeCast S16x512x256 y shapeCasts_S8192x256_S16x512x256 (ix3 a c e) = y (ix2 (flatRow a c) e) :=
  shapeCast_apply y shapeCasts_S8192x256_S16x512x256 (ix3 a c e) (ix2 (flatRow a c) e)
    (by rewrite [Shape.rowMajor_val_two, Shape.rowMajor_val_three]
        show (a.val * 512 + c.val) * 256 + e.val = (a.val * 512 + c.val) * 256 + e.val; rfl)

/-- The bias row broadcast along the 8192 rows is read at the column. -/
theorem bias_at (z : FVec Ideal S1x256 .f32) (p : Fin 8192) (e : Fin 256) :
    broadcastTo S8192x256 z broadcasts_S1x256_S8192x256 (ix2 p e) = z (ix2 (0 : Fin 1) e) :=
  broadcastTo_apply z broadcasts_S1x256_S8192x256 (ix2 p e) (ix2 (0 : Fin 1) e) (fun ax => match ax with
    | ⟨0, _⟩ => by show (0 : ℕ) = if (1 : ℕ) = 1 then 0 else p.val; rw [if_pos rfl]
    | ⟨1, _⟩ => by show e.val = if (256 : ℕ) = 1 then 0 else e.val; rw [if_neg (by decide)])

/-- The sum over the last axis, from zero, at `(a, c)`. -/
theorem laneSum_at (w : FVec Ideal S16x512x256 .f32) (a : Fin 16) (c : Fin 512) :
    multiReduction .add [2] S16x512 w 0x00000000#32 reduces_S16x512x256_S16x512 (.inl rfl) rfl (ix2 a c)
      = ∑ e : Fin 256, w (ix3 a c e) := by
  refine (Ideal.multiReduction_add_single w (0x00000000#32 : BitVec 32) reduces_S16x512x256_S16x512 (.inl rfl) rfl (ix2 a c)).trans ?_
  refine Finset.sum_congr rfl fun e _ => ?_
  exact congrArg w (funext fun ax => Fin.ext (by match ax with | ⟨0, _⟩ => rfl | ⟨1, _⟩ => rfl | ⟨2, _⟩ => rfl))

/-! ## The matrix product at an entry -/

theorem lhs_axis0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem lhs_axis1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
theorem rhs_axis0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
theorem rhs_axis1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- The product into a zero accumulator at `(p, e)`: the sum over the contracted index of row `p` times column `e`. -/
theorem matmul_at (l : FVec Ideal S8192x256 .bf16) (r : FVec Ideal S256x256 .bf16) (p : Fin 8192) (e : Fin 256) :
    matmul dot_S8192x256_S256x256_S8192x256_1_0_0_1_n_n none l r (constant (F := Ideal) S8192x256 .f32 0x00000000#32) (ix2 p e)
      = ∑ k : Fin 256, l (ix2 p k) * r (ix2 k e) := by
  simp only [matmul]
  rw [Ideal.matmul_constant_zero_apply, ← Equiv.sum_comp (contrEquiv1 dot_S8192x256_S256x256_S8192x256_1_0_0_1_n_n 256 rfl rfl).symm]
  refine Finset.sum_congr rfl fun k _ => ?_
  have hk := contrEquiv1_symm_val dot_S8192x256_S256x256_S8192x256_1_0_0_1_n_n 256 rfl rfl k
  have el : dot_S8192x256_S256x256_S8192x256_1_0_0_1_n_n.lhsIdx (ix2 p e) ((contrEquiv1 dot_S8192x256_S256x256_S8192x256_1_0_0_1_n_n 256 rfl rfl).symm k) = ix2 p k := funext fun ax => Fin.ext (by
    match ax with
    | ⟨0, _⟩ => exact lhs_axis0 _ _
    | ⟨1, _⟩ => exact (lhs_axis1 _ _).trans hk)
  have er : dot_S8192x256_S256x256_S8192x256_1_0_0_1_n_n.rhsIdx (ix2 p e) ((contrEquiv1 dot_S8192x256_S256x256_S8192x256_1_0_0_1_n_n 256 rfl rfl).symm k) = ix2 k e := funext fun ax => Fin.ext (by
    match ax with
    | ⟨0, _⟩ => exact (rhs_axis0 _ _).trans hk
    | ⟨1, _⟩ => exact rhs_axis1 _ _)
  rw [el, er]

/-! ## The payload -/

/-- The body's stored value at entry `(a, c)` of the output block. -/
theorem pay_at (x0 : FVec Ideal S16x512x256 .f32) (x1 : FVec Ideal S256x256 .bf16) (x2 : FVec Ideal S1x256 .f32)
    (a : Fin 16) (c : Fin 512) :
    k0_pay1 (F := Ideal) x0 x1 x2 (ix2 a c)
      = ∑ e : Fin 256, ((∑ k : Fin 256, x0 (ix3 a c k) * x1 (ix2 k e)) + x2 (ix2 (0 : Fin 1) e)) := by
  unfold k0_pay1
  refine (laneSum_at _ a c).trans ?_
  refine Finset.sum_congr rfl fun e _ => ?_
  refine (unflatten_at _ a c e).trans ?_
  refine congrArg₂ (· + ·) ?_ ?_
  · refine (matmul_at _ _ (flatRow a c) e).trans ?_
    refine Finset.sum_congr rfl fun k _ => ?_
    refine congrArg₂ (· * ·) ?_ ?_
    · refine Eq.trans ?_ (flatten_at x0 a c k)
      exact congrFun (congrArg (fun v => shapeCast S8192x256 v shapeCasts_S16x512x256_S8192x256) (shapeCast_self x0 shapeCasts_S16x512x256_S16x512x256)) (ix2 (flatRow a c) k)
    · exact congrFun (shapeCast_self x1 shapeCasts_S256x256_S256x256) (ix2 k e)
  · refine (bias_at _ (flatRow a c) e).trans ?_
    exact congrFun (shapeCast_self x2 shapeCasts_S1x256_S1x256) (ix2 (0 : Fin 1) e)

end Cert.KernelIdeal.Body

end
-- ==== Proof.HostArrays.lean ====
/-
  What the kernel region finds in its three input arrays.

  Before the region the host lays the image out as a 512 × 512 × 256 array of flattened patches, transposes the weight
  (and changes its float format, which is the identity on the extended reals), and gives the bias a leading unit axis.
  Entry `(r, c, k)` of the patch array is at flat position `(512 r + c) * 256 + k = ((512 r + c) * 16 + k / 16) * 16 + k % 16`,
  so it is entry `(r, c, k / 16, k % 16)` before the last reshape, `(r, k / 16, c, k % 16)` before the transpose, and the image
  at row `16 r + k / 16`, column `16 c + k % 16`: the specification's pixel.
-/
import proofs.«176963_j2439541424746_1_alg».proof.Proof.Gen.KernelIdeal.Frame
import proofs.«176963_j2439541424746_1_alg».proof.Proof.Spec
import Idealize.ShloMosaic.Lib.Pipeline.Value
import Idealize.ShloMosaic.Lib.ValueIdx
import Idealize.ShloMosaic.Lib.StableHlo.Run

noncomputable section

namespace Cert.KernelIdeal.HostArrays

open Cert.KernelIdeal Cert.KernelIdeal.Gen Cert.PatchLinear
open Idealize.ShloMosaic Idealize.ShloMosaic.TcCoe Idealize.ShloMosaic.ValueIdx Idealize.SL.Sem

variable (m : (ℓ : Loc nD τ sig) → Buf (Elt Ideal) ℓ)

/-! ## The arrays as terms of the arguments -/

theorem patches_eq (c : Dev nD) :
    (V m c main_v2 : S512x512x256.Idx → EReal)
      = shapeCast S512x512x256 (transpose S512x512x16x16 [0, 2, 1, 3]
          (shapeCast S512x16x512x16 (m ((c : Thread nD τ).loc main_arg0)) shapeCasts_S8192x8192_S512x16x512x16)
          transposes_S512x16x512x16_S512x512x16x16_0_2_1_3) shapeCasts_S512x512x16x16_S512x512x256 := by
  dsimp only [Gen.V, Gen.hostOps0]; after_results; rfl

theorem weightT_eq (c : Dev nD) :
    (V m c main_v4 : S256x256.Idx → EReal)
      = truncf (F := Ideal) .bf16 (transpose S256x256 [1, 0] (m ((c : Thread nD τ).loc main_arg1)) transposes_S256x256_S256x256_1_0) bitsLt_bf16_f32 := by
  dsimp only [Gen.V, Gen.hostOps0]; after_results <;> rfl

theorem biasRow_eq (c : Dev nD) :
    (V m c main_v5 : S1x256.Idx → EReal)
      = shapeCast S1x256 (m ((c : Thread nD τ).loc main_arg2)) shapeCasts_S256_S1x256 := by
  dsimp only [Gen.V, Gen.hostOps0]; after_results; rfl

/-! ## The arrays at an entry -/

/-- The patch array at `(r, c, k)` is the image at the pixel patch `(r, c)` holds at position `k`. -/
theorem patches_at (c : Dev nD) (r b : Fin 512) (k : Fin 256) :
    V m c main_v2 (ix3 r b k) = m ((c : Thread nD τ).loc main_arg0) (pixel r b k) := by
  have hr : r.val < 512 := r.isLt
  have hb : b.val < 512 := b.isLt
  have hk : k.val < 256 := k.isLt
  have e := congrFun (patches_eq m c) (ix3 r b k)
  refine e.trans ?_
  refine (shapeCast_apply _ shapeCasts_S512x512x16x16_S512x512x256 (ix3 r b k)
    (ix4 r b (⟨k.val / 16, by omega⟩ : Fin 16) (⟨k.val % 16, by omega⟩ : Fin 16))
    (by rewrite [Shape.rowMajor_val_four, Shape.rowMajor_val_three]
        show ((r.val * 512 + b.val) * 16 + k.val / 16) * 16 + k.val % 16 = (r.val * 512 + b.val) * 256 + k.val; omega)).trans ?_
  refine (transpose_apply [0, 2, 1, 3] _ transposes_S512x16x512x16_S512x512x16x16_0_2_1_3
    (ix4 r b (⟨k.val / 16, by omega⟩ : Fin 16) (⟨k.val % 16, by omega⟩ : Fin 16))
    (ix4 r (⟨k.val / 16, by omega⟩ : Fin 16) b (⟨k.val % 16, by omega⟩ : Fin 16))
    (fun ax => match ax with
      | ⟨0, _⟩ => rfl
      | ⟨1, _⟩ => rfl
      | ⟨2, _⟩ => rfl
      | ⟨3, _⟩ => rfl)).trans ?_
  exact shapeCast_apply _ shapeCasts_S8192x8192_S512x16x512x16
    (ix4 r (⟨k.val / 16, by omega⟩ : Fin 16) b (⟨k.val % 16, by omega⟩ : Fin 16)) (pixel r b k)
    (by rewrite [Shape.rowMajor_val_two, Shape.rowMajor_val_four]
        show (16 * r.val + k.val / 16) * 8192 + (16 * b.val + k.val % 16) = ((r.val * 16 + k.val / 16) * 512 + b.val) * 16 + k.val % 16; omega)

/-- The transposed weight at `(k, e)` is the weight at `(e, k)`. -/
theorem weightT_at (c : Dev nD) (k e : Fin 256) :
    V m c main_v4 (ix2 k e) = m ((c : Thread nD τ).loc main_arg1) (ix2 e k) := by
  have h := congrFun (weightT_eq m c) (ix2 k e)
  refine h.trans ?_
  exact transpose_apply [1, 0] _ transposes_S256x256_S256x256_1_0 (ix2 k e) (ix2 e k)
    (fun ax => match ax with
      | ⟨0, _⟩ => rfl
      | ⟨1, _⟩ => rfl)

/-- The bias row at `(0, e)` is the bias at `e`. -/
theorem biasRow_at (c : Dev nD) (e : Fin 256) :
    V m c main_v5 (ix2 (0 : Fin 1) e) = m ((c : Thread nD τ).loc main_arg2) (ix1 e) := by
  have h := congrFun (biasRow_eq m c) (ix2 (0 : Fin 1) e)
  refine h.trans ?_
  exact shapeCast_apply _ shapeCasts_S256_S1x256 (ix2 (0 : Fin 1) e) (ix1 e)
    (by rewrite [Shape.rowMajor_val_one, Shape.rowMajor_val_two]
        show e.val = 0 * 256 + e.val; omega)

end Cert.KernelIdeal.HostArrays

end
-- ==== Proof.Whole.lean ====
/-
  From the kernel's blocks to its whole output array.

  Grid step `t` (of 32) reads patch rows `16 t … 16 t + 15` (all 512 patches of each, all 256 positions), the whole
  transposed weight and the whole bias row, and writes rows `16 t … 16 t + 15` of the 512 × 512 output. Entry `(a, b)` of
  the block it writes back is the body's value there, whose factors are the host arrays at `(16 t + a, b, k)`, `(k, e)`
  and `(0, e)`: the specification at `(16 t + a, b)`. Every output row `i` lies in the block of step `i / 16`, so the
  sixteen-row blocks cover the array and it ends holding the specification everywhere.
-/
import proofs.«176963_j2439541424746_1_alg».proof.Proof.Gen.KernelIdeal.Value
import proofs.«176963_j2439541424746_1_alg».proof.Proof.Spec
import proofs.«176963_j2439541424746_1_alg».proof.Proof.Body
import proofs.«176963_j2439541424746_1_alg».proof.Proof.HostArrays

noncomputable section

namespace Cert.KernelIdeal.Whole

open Cert.KernelIdeal Cert.KernelIdeal.Gen Cert.PatchLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The index maps over the 32 grid points: the patch block and the output block move with the step along the
    rows, and nothing else moves. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The patch row that row `a` of step `t`'s block is. -/
abbrev stepRow (t : Fin cfg0.N) (a : Fin 16) : Fin 512 :=
  ⟨16 * t.val + a.val, by have ht := t.isLt; have hN : cfg0.N = 32 := N_0; have ha := a.isLt; omega⟩

/-! ## Each input block, read where the step's block lies -/

theorem patchBlock_at (c : Dev nD) (t : Fin cfg0.N) (a : Fin 16) (b : Fin 512) (k : Fin 256) :
    iblk m c 0 t (ix3 a b k) = V m c main_v2 (ix3 (stepRow t a) b k) := by
  obtain ⟨e0, e1, e2, -⟩ := index_facts t
  show V m c main_v2 (((cfg0.win 0).blk t).view.emb (ix3 a b k)) = V m c main_v2 (ix3 (stepRow t a) b k)
  refine congrArg (V m c main_v2) (funext fun ax => Fin.ext ?_)
  match ax with
  | ⟨0, _⟩ => show win0_0.index t (0 : Fin 3) * 16 + 1 * a.val = 16 * t.val + a.val; omega
  | ⟨1, _⟩ => show win0_0.index t (1 : Fin 3) * 512 + 1 * b.val = b.val; omega
  | ⟨2, _⟩ => show win0_0.index t (2 : Fin 3) * 256 + 1 * k.val = k.val; omega

theorem weightBlock_at (c : Dev nD) (t : Fin cfg0.N) (k e : Fin 256) :
    iblk m c 1 t (ix2 k e) = V m c main_v4 (ix2 k e) := by
  obtain ⟨-, -, -, e0, e1, -⟩ := index_facts t
  show V m c main_v4 (((cfg0.win 1).blk t).view.emb (ix2 k e)) = V m c main_v4 (ix2 k e)
  refine congrArg (V m c main_v4) (funext fun ax => Fin.ext ?_)
  match ax with
  | ⟨0, _⟩ => show win0_1.index t (0 : Fin 2) * 256 + 1 * k.val = k.val; omega
  | ⟨1, _⟩ => show win0_1.index t (1 : Fin 2) * 256 + 1 * e.val = e.val; omega

theorem biasBlock_at (c : Dev nD) (t : Fin cfg0.N) (e : Fin 256) :
    iblk m c 2 t (ix2 (0 : Fin 1) e) = V m c main_v5 (ix2 (0 : Fin 1) e) := by
  obtain ⟨-, -, -, -, -, e0, e1, -⟩ := index_facts t
  show V m c main_v5 (((cfg0.win 2).blk t).view.emb (ix2 (0 : Fin 1) e)) = V m c main_v5 (ix2 (0 : Fin 1) e)
  refine congrArg (V m c main_v5) (funext fun ax => Fin.ext ?_)
  match ax with
  | ⟨0, _⟩ => show win0_2.index t (0 : Fin 2) * 1 + 1 * 0 = 0; omega
  | ⟨1, _⟩ => show win0_2.index t (1 : Fin 2) * 256 + 1 * e.val = e.val; omega

/-! ## What a step writes back -/

/-- Step `t` writes back block `t` of the specification of the argument arrays. -/
theorem flushed_eq (c : Dev nD) (t : Fin cfg0.N) :
    (dats m 0 c).flushed 3 t = ((cfg0.win 3).blk t).view.read (Elt Ideal)
      (patchSum (m ((c : Thread nD τ).loc main_arg0)) (m ((c : Thread nD τ).loc main_arg1)) (m ((c : Thread nD τ).loc main_arg2))) := by
  rw [Value.flushed3]
  unfold out0_3
  rw [View.canon_unit_zero zeros2]
  simp only [View.ld_unit_zero (S := S16x512x256) zeros3, View.ld_unit_zero (S := S256x256) zeros2, View.ld_unit_zero (S := S1x256) zeros2]
  obtain ⟨-, -, -, -, -, -, -, e0, e1⟩ := index_facts t
  funext y
  obtain ⟨a, b, rfl⟩ : ∃ (a : Fin 16) (b : Fin 512), y = ix2 a b := ⟨y 0, y 1, eq_ix2 y⟩
  show k0_pay1 (F := Ideal) (iblk m c 0 t) (iblk m c 1 t) (iblk m c 2 t) (ix2 a b)
    = patchSum (m ((c : Thread nD τ).loc main_arg0)) (m ((c : Thread nD τ).loc main_arg1)) (m ((c : Thread nD τ).loc main_arg2)) (((cfg0.win 3).blk t).view.emb (ix2 a b))
  have hemb : ((cfg0.win 3).blk t).view.emb (ix2 a b) = ix2 (stepRow t a) b := funext fun ax => Fin.ext (by
    match ax with
    | ⟨0, _⟩ => show win0_3.index t (0 : Fin 2) * 16 + 1 * a.val = 16 * t.val + a.val; omega
    | ⟨1, _⟩ => show win0_3.index t (1 : Fin 2) * 512 + 1 * b.val = b.val; omega)
  rw [hemb, patchSum_ix2]
  refine (Body.pay_at (iblk m c 0 t) (iblk m c 1 t) (iblk m c 2 t) a b).trans ?_
  unfold patchSumAt
  refine Finset.sum_congr rfl fun e _ => ?_
  refine congrArg₂ (· + ·) (Finset.sum_congr rfl fun k _ => congrArg₂ (· * ·) ?_ ?_) ?_
  · exact (patchBlock_at m c t a b k).trans (HostArrays.patches_at m c (stepRow t a) b k)
  · exact (weightBlock_at m c t k e).trans (HostArrays.weightT_at m c k e)
  · exact (biasBlock_at m c t e).trans (HostArrays.biasRow_at m c e)

/-! ## The blocks cover the array -/

/-- An output index is in step `t`'s block iff each coordinate is in the block's range on its axis. -/
theorem mem_block (t : Fin cfg0.N) (i : S512x512.Idx) :
    i ∈ ((cfg0.win 3).blk t).view.set ↔ ∀ a : Fin 2, win0_3.index t a * S16x512.size a ≤ (i a).val ∧ (i a).val < win0_3.index t a * S16x512.size a + S16x512.size a := by
  show i ∈ ((View.whole main_v6).slice (win0_3.rect t)).set ↔ _
  rw [View.set_slice_whole, Rect.mem_set_unit]
  exact Iff.rfl

/-- Row `i` lies in the block of step `i / 16`. -/
theorem covered (i : S512x512.Idx) :
    ∃ t : Fin cfg0.N, (cfg0.win 3).flush t = true ∧ i ∈ ((cfg0.win 3).blk t).view.set := by
  have hi0 : (i 0).val < 512 := (i 0).isLt
  have hi1 : (i 1).val < 512 := (i 1).isLt
  have hN : cfg0.N = 32 := N_0
  obtain ⟨t, ht⟩ : ∃ t : Fin cfg0.N, t.val = (i 0).val / 16 := ⟨⟨(i 0).val / 16, by omega⟩, rfl⟩
  obtain ⟨-, -, -, -, -, -, -, e0, e1⟩ := index_facts t
  refine ⟨t, flush0_3 t, ?_⟩
  rw [mem_block]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 512 ≤ (i 1).val ∧ (i 1).val < win0_3.index t (1 : Fin 2) * 512 + 512; omega

/-! ## The array after the run, and the run -/

/-- After the run the output array is the specification of the argument arrays. -/
theorem final (c : Dev nD) :
    (dats m 0 c).arrAt 3 cfg0.N = patchSum (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the idealized kernel terminates with its result at the specification of the
    arguments, the arguments unchanged. -/
theorem run : θ_run defs (onTc (τ := τ) (main (F := Ideal))) ⟨m, fun _ => 0, ρ⟩ fun r => ∀ c : Dev nD,
      r.2.mem ((c : Thread nD τ).loc main_v6) = patchSum (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The kernel and its reference compute one function of the image, the weight and the bias.

  The image (8192 × 8192) is cut into 512 × 512 patches of 16 × 16 pixels; a linear layer with 256 outputs is applied to each
  flattened patch and its outputs are summed, one number per patch (Proof/Spec.lean: `patchSum`). The reference flattens all
  262144 patches into the rows of one matrix, multiplies once by the transposed weight, adds the bias and sums each row
  (Proof/RefSpec.lean). The kernel takes sixteen patch rows per grid step, does the same product on that block with both
  factors narrowed to a shorter float format, and writes sixteen rows of the result (Proof/Body.lean for one block,
  Proof/HostArrays.lean for the arrays it reads, Proof/Whole.lean for the blocks put together). On the extended reals the
  change of format is the identity and both sides are the same sums of the same products in the same grouping, so they
  agree at every input, the infinities included: the precondition is not used.

  The kernel's idealization rewrote nothing, so the claim that it is the kernel's sanctioned idealization has no conjunct.
  The three frame claims are the generated frames, and for the reference its generated run with the result dropped.
-/
import proofs.«176963_j2439541424746_1_alg».proof.Defs
import proofs.«176963_j2439541424746_1_alg».proof.Proof.Gen.Kernel
import proofs.«176963_j2439541424746_1_alg».proof.Proof.Gen.Kernel.Skeleton
import proofs.«176963_j2439541424746_1_alg».proof.Proof.Gen.Kernel.Launch
import proofs.«176963_j2439541424746_1_alg».proof.Proof.Gen.Kernel.Points
import proofs.«176963_j2439541424746_1_alg».proof.Proof.Gen.Kernel.Frame
import proofs.«176963_j2439541424746_1_alg».proof.Proof.Gen.KernelIdeal
import proofs.«176963_j2439541424746_1_alg».proof.Proof.Gen.KernelIdeal.Skeleton
import proofs.«176963_j2439541424746_1_alg».proof.Proof.Gen.KernelIdeal.Launch
import proofs.«176963_j2439541424746_1_alg».proof.Proof.Gen.KernelIdeal.Points
import proofs.«176963_j2439541424746_1_alg».proof.Proof.Gen.KernelIdeal.Frame
import proofs.«176963_j2439541424746_1_alg».proof.Proof.Gen.ReferenceIdeal
import proofs.«176963_j2439541424746_1_alg».proof.Proof.Gen.Pre_finite_inputs
import proofs.«176963_j2439541424746_1_alg».proof.Proof.Gen.KernelIdeal.Value
import proofs.«176963_j2439541424746_1_alg».proof.Proof.Gen.ReferenceIdeal.Run
import proofs.«176963_j2439541424746_1_alg».proof.Proof.Gen.ReferenceIdeal.Read
import proofs.«176963_j2439541424746_1_alg».proof.Proof.Spec
import proofs.«176963_j2439541424746_1_alg».proof.Proof.RefSpec
import proofs.«176963_j2439541424746_1_alg».proof.Proof.Body
import proofs.«176963_j2439541424746_1_alg».proof.Proof.HostArrays
import proofs.«176963_j2439541424746_1_alg».proof.Proof.Whole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, the idealized kernel ends with its result at `patchSum` of its
    arguments, and the idealized reference with its result at the same function of its own, which are the same arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq_spec,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
